-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x512x128 : Shape := ⟨4, ![2, 512, 512, 128]⟩
abbrev S2x512 : Shape := ⟨2, ![2, 512]⟩
abbrev S128x63 : Shape := ⟨2, ![128, 63]⟩
abbrev S128 : Shape := ⟨1, ![128]⟩
abbrev S_ : Shape := ⟨0, ![]⟩

class Facts : Prop where
  bcast_S_S2x512x512x128 : S_.BroadcastsInDim S2x512x512x128 (![] : Fin 0 → Fin S2x512x512x128.rank)
  reducesTo_S2x512x512x128_S_d0_1_2_3 : S2x512x512x128.ReducesTo [0, 1, 2, 3] S_
  h_S_ : 0 < S_.numel
  bcast_S_S128x63 : S_.BroadcastsInDim S128x63 (![] : Fin 0 → Fin S128x63.rank)
  reducesTo_S128x63_S_d0_1 : S128x63.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S2x512x512x128 .f32) (main_arg1 : IVec S2x512 32) (main_arg2 : FVec F S128x63 .f32) (main_arg3 : FVec F S128 .f32) : IVec S_ 1 :=
  let main_v0 : FVec F S2x512x512x128 .f32 := Host.absf main_arg0
  let main_cst : FVec F S_ .f32 := constant S_ .f32 0x7F800000#32
  let main_v1 : FVec F S2x512x512x128 .f32 := broadcastInDim S2x512x512x128 ![] bcast_S_S2x512x512x128 main_cst
  let main_v2 : IVec S2x512x512x128 1 := cmpf .olt main_v0 main_v1
  let main_c : IVec S_ 1 := constantI S_ 1 1#1
  let main_v3 : IVec S_ 1 := (fun x v => Host.reduce IntOp.andi x v reducesTo_S2x512x512x128_S_d0_1_2_3 h_S_) main_v2 main_c
  let main_v4 : FVec F S128x63 .f32 := Host.absf main_arg2
  let main_cst_0 : FVec F S_ .f32 := constant S_ .f32 0x7F800000#32
  let main_v5 : FVec F S128x63 .f32 := broadcastInDim S128x63 ![] bcast_S_S128x63 main_cst_0
  let main_v6 : IVec S128x63 1 := cmpf .olt main_v4 main_v5
  let main_c_1 : IVec S_ 1 := constantI S_ 1 1#1
  let main_v7 : IVec S_ 1 := (fun x v => Host.reduce IntOp.andi x v reducesTo_S128x63_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S2x512x512x128 : Shape := ⟨4, ![2, 512, 512, 128]⟩
abbrev S2x512 : Shape := ⟨2, ![2, 512]⟩
abbrev S128x63 : Shape := ⟨2, ![128, 63]⟩
abbrev S128 : Shape := ⟨1, ![128]⟩
abbrev S63x128 : Shape := ⟨2, ![63, 128]⟩
abbrev S1x64x128x128 : Shape := ⟨4, ![1, 64, 128, 128]⟩
abbrev S64x128 : Shape := ⟨2, ![64, 128]⟩
abbrev S64x128x63 : Shape := ⟨3, ![64, 128, 63]⟩
abbrev S64x128x1 : Shape := ⟨3, ![64, 128, 1]⟩
abbrev S8192x63 : Shape := ⟨2, ![8192, 63]⟩
abbrev S8192x128 : Shape := ⟨2, ![8192, 128]⟩
abbrev S64x128x128 : Shape := ⟨3, ![64, 128, 128]⟩
abbrev S1x1x128 : Shape := ⟨3, ![1, 1, 128]⟩

abbrev nBuf : Space → Nat
  | .hbm => 6
  | .vmem => 6
  | .smem => 0
  | _ => 0

abbrev bufTy : (tb : Table) → Fin (tcTables nBuf tb) → BufTy
  | .hbm, ⟨0, _⟩ => ⟨S2x512x512x128, .f32⟩
  | .hbm, ⟨1, _⟩ => ⟨S2x512, .i32⟩
  | .hbm, ⟨2, _⟩ => ⟨S128x63, .f32⟩
  | .hbm, ⟨3, _⟩ => ⟨S128, .f32⟩
  | .hbm, ⟨4, _⟩ => ⟨S63x128, .f32⟩
  | .hbm, ⟨5, _⟩ => ⟨S2x512x512x128, .f32⟩
  | .local _ .vmem, ⟨0, _⟩ => ⟨S1x64x128x128, .f32⟩
  | .local _ .vmem, ⟨1, _⟩ => ⟨S1x64x128x128, .f32⟩
  | .local _ .vmem, ⟨2, _⟩ => ⟨S63x128, .f32⟩
  | .local _ .vmem, ⟨3, _⟩ => ⟨S128, .f32⟩
  | .local _ .vmem, ⟨4, _⟩ => ⟨S1x64x128x128, .f32⟩
  | .local _ .vmem, ⟨5, _⟩ => ⟨S1x64x128x128, .f32⟩
  | _, _ => ⟨S2x512x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S63x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x64x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  transposes_S128x63_S63x128_1_0 : S128x63.Transposes [1, 0] S63x128
  iota_S64x128_d0_w32 : S64x128.Iotas .tc 32 [0]
  iota_S64x128_d1_w32 : S64x128.Iotas .tc 32 [1]
  iota_S64x128x63_d2_w32 : S64x128x63.Iotas .tc 32 [2]
  shapeCasts_S64x128_S64x128x1 : S64x128.ShapeCasts S64x128x1
  broadcasts_S64x128x1_S64x128x63 : S64x128x1.Broadcasts S64x128x63
  natLt_1_32 : 1 < 32
  bitsLt_bf16_f32 : FTy.bits .bf16 < FTy.bits .f32
  shapeCasts_S64x128x63_S8192x63 : S64x128x63.ShapeCasts S8192x63
  inb_S63x128_S63x128_0_0 : ∀ a, (![0, 0] : Fin 2 → Nat) a + S63x128.size a ≤ S63x128.size a
  h_S63x128 : 0 < S63x128.numel
  shapeCasts_S63x128_S63x128 : S63x128.ShapeCasts S63x128
  shapeCasts_S8192x128_S64x128x128 : S8192x128.ShapeCasts S64x128x128
  inb_S128_S128_0 : ∀ a, (![0] : Fin 1 → Nat) a + S128.size a ≤ S128.size a
  h_S128 : 0 < S128.numel
  shapeCasts_S128_S1x1x128 : S128.ShapeCasts S1x1x128
  broadcasts_S1x1x128_S64x128x128 : S1x1x128.Broadcasts S64x128x128
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  shapeCasts_S64x128x128_S1x64x128x128 : S64x128x128.ShapeCasts S1x64x128x128
  dot_S8192x63_S63x128_S8192x128_1_0_0_1_n_n_wf : DotDims.WF S8192x63 S63x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x128.size a ≤ S2x512x512x128.size a
  hwx0_0 : ∀ i : grid0.Coords, EltTy.bits .f32 = 32 ∨ (Rect.block (s := S2x512x512x128) S1x64x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S63x128.size a ≤ S63x128.size a
  hwx0_1 : ∀ i : grid0.Coords, EltTy.bits .f32 = 32 ∨ (Rect.block (s := S63x128) S63x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x128x128.size a ≤ S2x512x512x128.size a
  hwx0_3 : ∀ i : grid0.Coords, EltTy.bits .f32 = 32 ∨ (Rect.block (s := S2x512x512x128) S1x64x128x128.size (cc0_transform_3 i) (hinb0_3 i)).WholeWords (EltTy.packing .f32)

variable [Facts₀]

def dot_S8192x63_S63x128_S8192x128_1_0_0_1_n_n : DotDims S8192x63 S63x128 S8192x128 where
  lhsContracting := [1]
  rhsContracting := [0]
  lhsNonContracting := [0]
  rhsNonContracting := [1]
  lhsBatch := []
  rhsBatch := []
  wf := dot_S8192x63_S63x128_S8192x128_1_0_0_1_n_n_wf

abbrev win0_0 : Pipeline.Window sig grid0 :=
  Pipeline.Window.ofSpec (Memref.whole main_arg0) S1x64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S63x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x512x512x128 : Shape := ⟨4, ![2, 512, 512, 128]⟩
abbrev S2x512 : Shape := ⟨2, ![2, 512]⟩
abbrev S128x63 : Shape := ⟨2, ![128, 63]⟩
abbrev S128 : Shape := ⟨1, ![128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S63x128 : Shape := ⟨2, ![63, 128]⟩
abbrev S512x512x1 : Shape := ⟨3, ![512, 512, 1]⟩
abbrev S512x512x128 : Shape := ⟨3, ![512, 512, 128]⟩
abbrev S1x1x128 : Shape := ⟨3, ![1, 1, 128]⟩
abbrev S1x512x512x128 : Shape := ⟨4, ![1, 512, 512, 128]⟩

abbrev nBuf : Space → Nat
  | .hbm => 37
  | .vmem => 0
  | .smem => 0
  | _ => 0

abbrev bufTy : (tb : Table) → Fin (tcTables nBuf tb) → BufTy
  | .hbm, ⟨0, _⟩ => ⟨S2x512x512x128, .f32⟩
  | .hbm, ⟨1, _⟩ => ⟨S2x512, .i32⟩
  | .hbm, ⟨2, _⟩ => ⟨S128x63, .f32⟩
  | .hbm, ⟨3, _⟩ => ⟨S128, .f32⟩
  | .hbm, ⟨4, _⟩ => ⟨S512, .i32⟩
  | .hbm, ⟨5, _⟩ => ⟨S512x1, .i32⟩
  | .hbm, ⟨6, _⟩ => ⟨S1x512, .i32⟩
  | .hbm, ⟨7, _⟩ => ⟨S512x512, .i32⟩
  | .hbm, ⟨8, _⟩ => ⟨S512x512, .i32⟩
  | .hbm, ⟨9, _⟩ => ⟨S512x512, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i32⟩
  | .hbm, ⟨18, _⟩ => ⟨S_, .i32⟩
  | .hbm, ⟨19, _⟩ => ⟨S512x512, .i32⟩
  | .hbm, ⟨20, _⟩ => ⟨S512x512, .i32⟩
  | .hbm, ⟨21, _⟩ => ⟨S63x128, .f32⟩
  | .hbm, ⟨22, _⟩ => ⟨S_, .i32⟩
  | .hbm, ⟨23, _⟩ => ⟨S512x512, .i32⟩
  | .hbm, ⟨24, _⟩ => ⟨S512x512, .i1⟩
  | .hbm, ⟨25, _⟩ => ⟨S_, .i32⟩
  | .hbm, ⟨26, _⟩ => ⟨S512x512, .i32⟩
  | .hbm, ⟨27, _⟩ => ⟨S512x512, .i32⟩
  | .hbm, ⟨28, _⟩ => ⟨S512x512, .i32⟩
  | .hbm, ⟨29, _⟩ => ⟨S512x512x1, .i32⟩
  | .hbm, ⟨30, _⟩ => ⟨S512x512x128, .f32⟩
  | .hbm, ⟨31, _⟩ => ⟨S1x1x128, .f32⟩
  | .hbm, ⟨32, _⟩ => ⟨S512x512x128, .f32⟩
  | .hbm, ⟨33, _⟩ => ⟨S512x512x128, .f32⟩
  | .hbm, ⟨34, _⟩ => ⟨S1x512x512x128, .f32⟩
  | .hbm, ⟨35, _⟩ => ⟨S2x512x512x128, .f32⟩
  | .hbm, ⟨36, _⟩ => ⟨S2x512x512x128, .f32⟩
  | _, _ => ⟨S2x512x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  transposes_S128x63_S63x128_1_0 : S128x63.Transposes [1, 0] S63x128
  bcast_S512x512_S512x512x1_0_1 : S512x512.BroadcastsInDim S512x512x1 (![0, 1] : Fin 2 → Fin S512x512x1.rank)
  bcast_S128_S1x1x128_2 : S128.BroadcastsInDim S1x1x128 (![2] : Fin 1 → Fin S1x1x128.rank)
  bcast_S1x1x128_S512x512x128_0_1_2 : S1x1x128.BroadcastsInDim S512x512x128 (![0, 1, 2] : Fin 3 → Fin S512x512x128.rank)
  bcast_S512x512x128_S1x512x512x128_1_2_3 : S512x512x128.BroadcastsInDim S1x512x512x128 (![1, 2, 3] : Fin 3 → Fin S1x512x512x128.rank)
  bcast_S1x512x512x128_S2x512x512x128_0_1_2_3 : S1x512x512x128.BroadcastsInDim S2x512x512x128 (![0, 1, 2, 3] : Fin 4 → Fin S2x512x512x128.rank)
  gather_S63x128_S512x512x1_S512x512x128_2_0_n_n_0_2_1128_wf : GatherDims.WF S63x128 S512x512x1 S512x512x128 [2] [0] [] [0] [] 2 ![1, 128]

variable [Facts₀]

def gather_S63x128_S512x512x1_S512x512x128_2_0_n_n_0_2_1128 : GatherDims S63x128 S512x512x1 S512x512x128 where
  offsetDims := [2]
  collapsedSliceDims := [0]
  operandBatchingDims := []
  startIndicesBatchingDims := []
  startIndexMap := [0]
  indexVectorDim := 2
  sliceSizes := ![1, 128]
  wf := gather_S63x128_S512x512x1_S512x512x128_2_0_n_n_0_2_1128_wf

class Facts : Prop extends Facts₀ where

variable [Facts]
-- ==== Proof.Bins.lean ====
/-
  The relative-position bin, as the 32-bit word both programs compute and as an index into the 63 rows of
  the transposed weight.

  Both programs form, for a query position q and a key position k, the difference word d = q - k (two's
  complement, 32 bits), clamp it as a SIGNED integer to [-31, 31] (a signed maximum with -31, then a signed
  minimum with 31) and add 31.  The clamp lands in [-31, 31] whatever d is, so the sum is a word whose value
  lies in [0, 62]: it is never negative as a signed word, it is below 63, and it survives a clamp to
  [0, 62] unchanged.  These three facts are all either program ever uses of the word.

  The kernel then compares the word with each of the 63 bin numbers, widens the one-bit answers to 0 / 1 and
  multiplies the resulting one-hot row into the weight: a sum over the 63 bins in which every term but the
  one at the word's value is 0 · w = 0 on the extended reals, and that one is 1 · w = w.  So the sum is the
  weight's entry at the word's value (`onehot_sum`), which is what the reference's gather reads.
-/
import Idealize.ShloMosaic.PureOps.Ideal
import Idealize.ShloMosaic.Lib.ValueIdx

noncomputable section

open scoped BigOperators

namespace Cert.RelPos

open Idealize.ShloMosaic Idealize.ShloMosaic.ValueIdx

/-- The bin word of a difference word `d`: `d` clamped as a signed integer to [-31, 31], plus 31
    (`4294967265` is the word of -31). -/
def binW (d : BitVec 32) : BitVec 32 :=
  IntOp.addi (IntOp.minsi 31#32 (IntOp.maxsi 4294967265#32 d)) 31#32

/-- Whatever the difference word, the bin word's value is at most 62: below -31 the clamp gives -31 and the
    sum 0; above 31 it gives 31 and the sum 62; in between the sum is d + 31 with d in [-31, 31]. -/
theorem binW_toNat_le (d : BitVec 32) : (binW d).toNat ≤ 62 := by
  unfold binW IntOp.addi IntOp.minsi IntOp.maxsi
  by_cases h1 : d.slt 4294967265#32
  · rw [if_pos h1]; decide
  · rw [if_neg h1]
    by_cases h2 : (31#32).slt d
    · rw [if_pos h2]; decide
    · rw [if_neg h2]
      have e1 : (4294967265#32 : BitVec 32).toInt = -31 := by decide
      have e2 : (31#32 : BitVec 32).toInt = 31 := by decide
      simp only [BitVec.slt, decide_eq_true_eq, e1, e2] at h1 h2
      rw [BitVec.toInt_eq_toNat_cond] at h1 h2
      rw [BitVec.toNat_add]
      have := d.isLt
      simp only [BitVec.toNat_ofNat]
      split at h1 <;> omega

theorem binW_lt (d : BitVec 32) : (binW d).toNat < 63 := Nat.lt_succ_of_le (binW_toNat_le d)

/-- The bin as a row number of the 63-row transposed weight. -/
def binOf (d : BitVec 32) : Fin 63 := ⟨(binW d).toNat, binW_lt d⟩

/-- Read as a signed integer the bin word is its (small, non-negative) value. -/
theorem binW_toInt (d : BitVec 32) : (binW d).toInt = ((binW d).toNat : Int) := by
  have := binW_toNat_le d
  rw [BitVec.toInt_eq_toNat_cond, if_pos (by omega)]

/-- The bin word is not negative: the signed test "below 0" answers 0. -/
theorem binW_not_neg (d : BitVec 32) : IntOp.cmpi .slt (binW d) 0#32 = 0#1 := by
  have h : (binW d).slt 0#32 = false := by
    have e0 : (0#32 : BitVec 32).toInt = 0 := by decide
    simp only [BitVec.slt, binW_toInt, e0, decide_eq_false_iff_not, not_lt]
    exact Int.natCast_nonneg _
  show BitVec.ofBool ((binW d).slt 0#32) = 0#1
  rw [h]; rfl

/-- A clamp of the bin word, read signed, into [0, 62] leaves its value. -/
theorem binW_clamp (d : BitVec 32) : min (binW d).toInt.toNat (63 - 1) = (binW d).toNat := by
  have := binW_toNat_le d
  rw [binW_toInt, Int.toNat_natCast]
  omega

/-- The one-hot entry: the answer of "word = j" for a bin number j < 63, widened from one bit to 32 and read
    as a signed integer, is 1 when the word's value is j and 0 otherwise. -/
theorem onehot_entry (w : BitVec 32) (j : Fin 63) :
    (((IntOp.cmpi .eq w (BitVec.ofNat 32 j.val)).setWidth 32).toInt : ℝ) = if w.toNat = j.val then 1 else 0 := by
  have hj : j.val < 2 ^ 32 := Nat.lt_trans j.isLt (by decide)
  by_cases h : w.toNat = j.val
  · have hw : w = BitVec.ofNat 32 j.val := by
      apply BitVec.eq_of_toNat_eq; rw [h, BitVec.toNat_ofNat, Nat.mod_eq_of_lt hj]
    rw [if_pos h, hw]
    have : IntOp.cmpi .eq (BitVec.ofNat 32 j.val) (BitVec.ofNat 32 j.val) = 1#1 := by
      show BitVec.ofBool (BitVec.ofNat 32 j.val == BitVec.ofNat 32 j.val) = 1#1
      rw [beq_self_eq_true]; rfl
    rw [this]
    have : ((1#1 : BitVec 1).setWidth 32).toInt = 1 := by decide
    rw [this]; norm_num
  · rw [if_neg h]
    have hne : (w == BitVec.ofNat 32 j.val) = false := by
      rw [beq_eq_false_iff_ne]
      intro hw; apply h; rw [hw, BitVec.toNat_ofNat, Nat.mod_eq_of_lt hj]
    have : IntOp.cmpi .eq w (BitVec.ofNat 32 j.val) = 0#1 := by
      show BitVec.ofBool (w == BitVec.ofNat 32 j.val) = 0#1
      rw [hne]; rfl
    rw [this]
    have : ((0#1 : BitVec 1).setWidth 32).toInt = 0 := by decide
    rw [this]; norm_num

/-- THE ONE-HOT SUM: the one-hot row of a word whose value is below 63, multiplied into a 63-entry column of
    extended reals and summed, is the column's entry at the word's value (0 · x = 0 and 1 · x = x for every
    extended real x, infinite ones included). -/
theorem onehot_sum (w : BitVec 32) (hw : w.toNat < 63) (f : Fin 63 → EReal) :
    ∑ j : Fin 63, ((((IntOp.cmpi .eq w (BitVec.ofNat 32 j.val)).setWidth 32).toInt : ℝ) : EReal) * f j
      = f ⟨w.toNat, hw⟩ := by
  rw [Finset.sum_eq_single (⟨w.toNat, hw⟩ : Fin 63)]
  · rw [onehot_entry, if_pos rfl, EReal.coe_one, one_mul]
  · intro j _ hj
    rw [onehot_entry, if_neg (fun h => hj (Fin.ext h.symm)), EReal.coe_zero, zero_mul]
  · intro h; exact absurd (Finset.mem_univ _) h

/-- A position word: the grid coordinate's word times the tile's extent plus the lane's word is the word of
    the absolute position (the arithmetic of 32-bit words is that of the naturals modulo 2^32). -/
theorem pos_word (c n p : ℕ) :
    IntOp.addi (Scalar.muli (BitVec.ofNat 32 c) (BitVec.ofNat 32 n)) (BitVec.ofNat 32 p) = BitVec.ofNat 32 (c * n + p) := by
  show BitVec.ofNat 32 c * BitVec.ofNat 32 n + BitVec.ofNat 32 p = _
  rw [← BitVec.ofNat_mul, ← BitVec.ofNat_add]

end Cert.RelPos

end
-- ==== Proof.Payload.lean ====
/-
  The kernel's stored value, read at one element of the tile.

  At grid point (n, i, j) the body handles the tile of 64 query positions from 64·i and 128 key positions
  from 128·j.  It builds the tile's table of bin words from the grid coordinates and two iotas (the absolute
  positions 64·i + p and 128·j + q, their difference word, the signed clip to [-31, 31], plus 31), compares
  the table against the 63 bin numbers to get a one-hot row per (p, q), lays the 64 × 128 rows out as 8192
  rows and multiplies them into the 63 × 128 transposed weight.  Row 128·p + q of the product at channel c is
  a sum over the 63 bins with one non-zero term: the weight at the bin of (64·i + p, 128·j + q) and channel
  c.  The bias is broadcast over (p, q) and added, and the input tile is added last:

      stored[0, p, q, c] = x[0, p, q, c] + (Wt[bin, c] + b[c]).

  The changes of float format (f32 to bf16 and back) are the identity on the extended reals.
-/
import proofs.«142008_j76501957476438_1_alg».proof.Proof.Gen.KernelIdeal.Skeleton
import proofs.«142008_j76501957476438_1_alg».proof.Proof.Bins
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx Cert.RelPos

variable {F : FTy → Type} [FloatOps F]

/-! ## The payload, with its two integer pieces named -/

/-- The tile's table of bin words: at (p, q) the bin word of (64·i + p) - (128·j + q). -/
def binTable (i : grid0.Coords) : IVec S64x128 32 :=
  addi
    (minsi (broadcast S64x128 31#32)
      (maxsi (broadcast S64x128 4294967265#32)
        (subi
          (addi (broadcast S64x128 (Scalar.muli (BitVec.ofNat 32 (i 1).val) 64#32)) (iota .tc S64x128 32 [0] iota_S64x128_d0_w32))
          (addi (broadcast S64x128 (Scalar.muli (BitVec.ofNat 32 (i 2).val) 128#32)) (iota .tc S64x128 32 [1] iota_S64x128_d1_w32)))))
    (broadcast S64x128 31#32)

/-- The one-hot rows of a table of words: row 128·p + q has a 1 at the bin number equal to the word at (p, q). -/
def oneHot (V : IVec S64x128 32) : FVec F S8192x63 .bf16 :=
  shapeCast S8192x63
    (truncf .bf16
      (sitofp .f32
        (extui 32
          (cmpi .eq (broadcastTo S64x128x63 (shapeCast S64x128x1 V shapeCasts_S64x128_S64x128x1) broadcasts_S64x128x1_S64x128x63)
            (iota .tc S64x128x63 32 [2] iota_S64x128x63_d2_w32))
          natLt_1_32))
      bitsLt_bf16_f32)
    shapeCasts_S64x128x63_S8192x63

/-- The stored value over these pieces (the printed operations, in their order). -/
theorem pay_eq (i : grid0.Coords) (wt : Vec F S63x128 .f32) (bv : Vec F S128 .f32) (xb : Vec F S1x64x128x128 .f32) :
    k0_pay1 (F := F) i wt bv xb
      = shapeCast S1x64x128x128
          (addf (shapeCast S64x128x128 xb shapeCasts_S1x64x128x128_S64x128x128)
            (addf
              (shapeCast S64x128x128
                (matmul dot_S8192x63_S63x128_S8192x128_1_0_0_1_n_n none (oneHot (F := F) (binTable i))
                  (truncf .bf16 (shapeCast S63x128 wt shapeCasts_S63x128_S63x128) bitsLt_bf16_f32)
                  (constant S8192x128 .f32 0x00000000#32))
                shapeCasts_S8192x128_S64x128x128)
              (broadcastTo S64x128x128 (shapeCast S1x1x128 bv shapeCasts_S128_S1x1x128) broadcasts_S1x1x128_S64x128x128)))
          shapeCasts_S64x128x128_S1x64x128x128 := rfl

/-! ## The pieces at an index -/

/-- The bin table at (p, q): the bin word of the difference of the two absolute positions. -/
theorem binTable_at (i : grid0.Coords) (p : Fin 64) (q : Fin 128) :
    binTable i (ix2 p q)
      = binW (BitVec.ofNat 32 ((i 1).val * 64 + p.val) - BitVec.ofNat 32 ((i 2).val * 128 + q.val)) := by
  show IntOp.addi (IntOp.minsi 31#32 (IntOp.maxsi 4294967265#32
      (IntOp.subi
        (IntOp.addi (Scalar.muli (BitVec.ofNat 32 (i 1).val) (BitVec.ofNat 32 64)) (BitVec.ofNat 32 (0 * 64 + p.val)))
        (IntOp.addi (Scalar.muli (BitVec.ofNat 32 (i 2).val) (BitVec.ofNat 32 128)) (BitVec.ofNat 32 (0 * 128 + q.val))))))
    31#32 = _
  simp only [Nat.zero_mul, Nat.zero_add]
  rw [pos_word, pos_word]
  rfl

/-- The one-hot rows at (128·p + q, k): the widened answer of "the word at (p, q) is k", as a number. -/
theorem oneHot_at (V : IVec S64x128 32) (p : Fin 64) (q : Fin 128) (k : Fin 63) :
    oneHot (F := Ideal) V (ix2 (⟨p.val * 128 + q.val, by have := p.isLt; have := q.isLt; omega⟩ : Fin 8192) k)
      = ((((IntOp.cmpi .eq (V (ix2 p q)) (BitVec.ofNat 32 k.val)).setWidth 32).toInt : ℝ) : EReal) := by
  unfold oneHot
  rw [shapeCast_apply _ _ _ (ix3 p q k) (by rw [Shape.rowMajor_val_three, Shape.rowMajor_val_two]; rfl)]
  rw [truncf_apply, sitofp_apply, extui_apply]
  have hb : broadcastTo S64x128x63 (shapeCast S64x128x1 V shapeCasts_S64x128_S64x128x1) broadcasts_S64x128x1_S64x128x63 (ix3 p q k)
      = V (ix2 p q) := by
    rw [broadcastTo_apply _ _ _ (ix3 p q (0 : Fin 1)) (fun a => by
      match a with
      | ⟨0, _⟩ => rfl
      | ⟨1, _⟩ => rfl
      | ⟨2, _⟩ => rfl)]
    exact shapeCast_apply _ _ _ (ix2 p q) (by
      rw [Shape.rowMajor_val_two, Shape.rowMajor_val_three]
      show p.val * 128 + q.val = (p.val * 128 + q.val) * 1 + 0
      omega)
  have hi : iota .tc S64x128x63 32 [2] iota_S64x128x63_d2_w32 (ix3 p q k) = BitVec.ofNat 32 k.val := by
    show BitVec.ofNat 32 (0 * 63 + k.val) = _
    rw [Nat.zero_mul, Nat.zero_add]
  show FloatOps.sitofp (F := Ideal) .f32
      ((IntOp.cmpi .eq
        (broadcastTo S64x128x63 (shapeCast S64x128x1 V shapeCasts_S64x128_S64x128x1) broadcasts_S64x128x1_S64x128x63 (ix3 p q k))
        (iota .tc S64x128x63 32 [2] iota_S64x128x63_d2_w32 (ix3 p q k))).setWidth 32) = _
  rw [hb, hi]
  rfl

/-- The broadcast bias at (p, q, c) is the bias at c. -/
theorem bias_at (bv : Vec Ideal S128 .f32) (p : Fin 64) (q : Fin 128) (c : Fin 128) :
    broadcastTo S64x128x128 (shapeCast S1x1x128 bv shapeCasts_S128_S1x1x128) broadcasts_S1x1x128_S64x128x128 (ix3 p q c)
      = bv (ix1 c) := by
  rw [broadcastTo_apply _ _ _ (ix3 (0 : Fin 1) (0 : Fin 1) c) (fun a => by
    match a with
    | ⟨0, _⟩ => rfl
    | ⟨1, _⟩ => rfl
    | ⟨2, _⟩ => rfl)]
  exact shapeCast_apply _ _ _ (ix1 c) (by
    rw [Shape.rowMajor_val_one, Shape.rowMajor_val_three]
    show c.val = (0 * 1 + 0) * 128 + c.val
    omega)

/-! ## The product with the one-hot rows at an index -/

theorem lhs_mm_0 (i : S8192x128.Idx) (q : dot_S8192x63_S63x128_S8192x128_1_0_0_1_n_n.contr.Idx) :
    (dot_S8192x63_S63x128_S8192x128_1_0_0_1_n_n.lhsIdx i q 0).val = (i 0).val := by
  unfold DotDims.lhsIdx
  rw [dif_neg (show ¬(0 : Fin S8192x63.rank) ∈ dot_S8192x63_S63x128_S8192x128_1_0_0_1_n_n.lhsBatch by decide),
    dif_pos (show (0 : Fin S8192x63.rank) ∈ dot_S8192x63_S63x128_S8192x128_1_0_0_1_n_n.lhsNonContracting by decide)]
  rfl

theorem lhs_mm_1 (i : S8192x128.Idx) (q : dot_S8192x63_S63x128_S8192x128_1_0_0_1_n_n.contr.Idx) :
    (dot_S8192x63_S63x128_S8192x128_1_0_0_1_n_n.lhsIdx i q 1).val = (q ⟨0, by decide⟩).val :=
  dot_S8192x63_S63x128_S8192x128_1_0_0_1_n_n.lhsIdx_val_of_single rfl i q

theorem rhs_mm_0 (i : S8192x128.Idx) (q : dot_S8192x63_S63x128_S8192x128_1_0_0_1_n_n.contr.Idx) :
    (dot_S8192x63_S63x128_S8192x128_1_0_0_1_n_n.rhsIdx i q 0).val = (q ⟨0, by decide⟩).val :=
  dot_S8192x63_S63x128_S8192x128_1_0_0_1_n_n.rhsIdx_val_of_single rfl i q

theorem rhs_mm_1 (i : S8192x128.Idx) (q : dot_S8192x63_S63x128_S8192x128_1_0_0_1_n_n.contr.Idx) :
    (dot_S8192x63_S63x128_S8192x128_1_0_0_1_n_n.rhsIdx i q 1).val = (i 1).val := by
  unfold DotDims.rhsIdx
  rw [dif_neg (show ¬(1 : Fin S63x128.rank) ∈ dot_S8192x63_S63x128_S8192x128_1_0_0_1_n_n.rhsBatch by decide),
    dif_pos (show (1 : Fin S63x128.rank) ∈ dot_S8192x63_S63x128_S8192x128_1_0_0_1_n_n.rhsNonContracting by decide)]
  rfl

/-- The 8192 × 63 by 63 × 128 product into a zero accumulator, at (R, c): the sum over the 63 bins of the
    left operand at (R, k) times the right operand at (k, c). -/
theorem matmul_at (l : FVec Ideal S8192x63 .bf16) (r : FVec Ideal S63x128 .bf16) (R : Fin 8192) (c : Fin 128) :
    matmul dot_S8192x63_S63x128_S8192x128_1_0_0_1_n_n none l r (constant S8192x128 .f32 0x00000000#32) (ix2 R c)
      = ∑ k : Fin 63, l (ix2 R k) * r (ix2 k c) := by
  show FloatOps.matmul dot_S8192x63_S63x128_S8192x128_1_0_0_1_n_n none l r (constant S8192x128 .f32 0x00000000#32) (ix2 R c) = _
  rw [Ideal.matmul_constant_zero_apply,
    ← Equiv.sum_comp (ValueIdx.contrEquiv1 dot_S8192x63_S63x128_S8192x128_1_0_0_1_n_n 63 rfl rfl).symm]
  refine Finset.sum_congr rfl fun k _ => ?_
  have hk := ValueIdx.contrEquiv1_symm_val dot_S8192x63_S63x128_S8192x128_1_0_0_1_n_n 63 rfl rfl k
  have el : dot_S8192x63_S63x128_S8192x128_1_0_0_1_n_n.lhsIdx (ix2 R c)
      ((ValueIdx.contrEquiv1 dot_S8192x63_S63x128_S8192x128_1_0_0_1_n_n 63 rfl rfl).symm k) = ix2 R k :=
    funext fun a => Fin.ext (by
      match a with
      | ⟨0, _⟩ => exact lhs_mm_0 _ _
      | ⟨1, _⟩ => exact (lhs_mm_1 _ _).trans hk)
  have er : dot_S8192x63_S63x128_S8192x128_1_0_0_1_n_n.rhsIdx (ix2 R c)
      ((ValueIdx.contrEquiv1 dot_S8192x63_S63x128_S8192x128_1_0_0_1_n_n 63 rfl rfl).symm k) = ix2 k c :=
    funext fun a => Fin.ext (by
      match a with
      | ⟨0, _⟩ => exact (rhs_mm_0 _ _).trans hk
      | ⟨1, _⟩ => exact rhs_mm_1 _ _)
  rw [el, er]

/-! ## The stored value at an index -/

/-- THE STORED VALUE AT (0, p, q, c): the input tile's entry plus (the transposed weight at the bin of the
    two absolute positions and channel c, plus the bias at c). -/
theorem pay_at (i : grid0.Coords) (wt : Vec Ideal S63x128 .f32) (bv : Vec Ideal S128 .f32) (xb : Vec Ideal S1x64x128x128 .f32)
    (p : Fin 64) (q : Fin 128) (c : Fin 128) :
    k0_pay1 (F := Ideal) i wt bv xb (ix4 (0 : Fin 1) p q c)
      = xb (ix4 (0 : Fin 1) p q c)
        + (wt (ix2 (binOf (BitVec.ofNat 32 ((i 1).val * 64 + p.val) - BitVec.ofNat 32 ((i 2).val * 128 + q.val))) c)
          + bv (ix1 c)) := by
  rw [pay_eq, shapeCast_abc_1abc_apply, addf_apply, addf_apply, shapeCast_1abc_abc_apply, bias_at]
  rw [shapeCast_apply _ _ _ (ix2 (⟨p.val * 128 + q.val, by have := p.isLt; have := q.isLt; omega⟩ : Fin 8192) c) (by
    rw [Shape.rowMajor_val_two, Shape.rowMajor_val_three]; rfl)]
  rw [matmul_at]
  simp only [oneHot_at, binTable_at, truncf_apply, shapeCast_self]
  rw [onehot_sum _ (binW_lt _) (fun k => wt (ix2 k c))]
  rfl

/-- The same at any index of the tile, its coordinates read off the index. -/
theorem pay_apply (i : grid0.Coords) (wt : Vec Ideal S63x128 .f32) (bv : Vec Ideal S128 .f32) (xb : Vec Ideal S1x64x128x128 .f32)
    (y : S1x64x128x128.Idx) :
    k0_pay1 (F := Ideal) i wt bv xb y
      = xb y
        + (wt (ix2 (binOf (BitVec.ofNat 32 ((i 1).val * 64 + (y 1).val) - BitVec.ofNat 32 ((i 2).val * 128 + (y 2).val)))
              (⟨(y 3).val, (y 3).isLt⟩ : Fin 128))
          + bv (ix1 (⟨(y 3).val, (y 3).isLt⟩ : Fin 128))) := by
  obtain ⟨u, p, q, c, rfl⟩ : ∃ (u : Fin 1) (p : Fin 64) (q : Fin 128) (c : Fin 128), y = ix4 u p q c :=
    ⟨y 0, y 1, y 2, y 3, eq_ix4 y⟩
  obtain rfl : u = 0 := Subsingleton.elim _ _
  exact pay_at i wt bv xb p q c

end Cert.KernelIdeal.Payload

end
-- ==== Proof.Spec.lean ====
/-
  The function both programs compute.

  out[n, q, k, c] = x[n, q, k, c] + (W[c, bin(q, k)] + b[c]),   bin(q, k) = clamp(q - k, -31, 31) + 31,

  with the sums on the extended reals in exactly this grouping (the embedding row plus the bias first, then
  the input plus that), the same for every batch entry n.  The bin is taken from the 32-bit difference word of
  the two positions, as both programs form it (Bins.lean).
-/
import proofs.«142008_j76501957476438_1_alg».proof.Proof.Bins

noncomputable section

namespace Cert.RelPos

open Idealize.ShloMosaic Idealize.ShloMosaic.ValueIdx

/-- The input plus the relative-position embedding: at (n, q, k, c) the input's entry plus (the weight's entry
    at channel c and the bin of (q, k), plus the bias at c). -/
def relPosAdd (x : (⟨4, ![2, 512, 512, 128]⟩ : Shape).Idx → EReal) (W : (⟨2, ![128, 63]⟩ : Shape).Idx → EReal)
    (b : (⟨1, ![128]⟩ : Shape).Idx → EReal) : (⟨4, ![2, 512, 512, 128]⟩ : Shape).Idx → EReal :=
  fun i => x i
    + (W (ix2 (⟨(i 3).val, (i 3).isLt⟩ : Fin 128) (binOf (BitVec.ofNat 32 (i 1).val - BitVec.ofNat 32 (i 2).val)))
      + b (ix1 (⟨(i 3).val, (i 3).isLt⟩ : Fin 128)))

end Cert.RelPos

end
-- ==== Proof.KernelValue.lean ====
/-
  The kernel's result array is the specification.

  The grid has 2 × 8 × 4 points; point (n, i, j) stages the input's tile [n, 64·i .. 64·i + 63, 128·j .. 128·j + 127, :],
  the whole transposed weight and the whole bias, and writes the output's tile at the same place.  The stored
  value at tile element (0, p, q, c) is the input tile's entry plus (the transposed weight at the bin of the
  absolute positions (64·i + p, 128·j + q) and channel c, plus the bias at c) (Payload.lean); the tile element
  sits at array index (n, 64·i + p, 128·j + q, c), the transposed weight at (bin, c) is the weight at (c, bin),
  so what the point writes back is the tile of `relPosAdd` of the three argument arrays.  The 64 tiles cover
  the array (the point that covers (n, q, k, c) is (n, q / 64, k / 128)), so the array ends as `relPosAdd`.
-/
import proofs.«142008_j76501957476438_1_alg».proof.Proof.KernelIdealValue
import proofs.«142008_j76501957476438_1_alg».proof.Proof.Payload
import proofs.«142008_j76501957476438_1_alg».proof.Proof.Spec
import Idealize.ShloMosaic.Lib.StableHlo.Run

set_option maxRecDepth 16384

noncomputable section

namespace Cert.KernelIdeal.RelPosValue

open Cert.KernelIdeal Cert.KernelIdeal.Gen Cert.KernelIdeal.GenP Cert.KernelIdeal.ValueP Cert.KernelIdeal.Payload
open Cert.RelPos
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the 64 grid points: the input's tile moves with the output's; the weight and
    the bias are always block 0; the output's block index on the two position axes is the grid coordinate,
    and 0 on the channel axis. -/
theorem idx_facts : ∀ t : Fin cfg0.N,
    win0_0.index t (0 : Fin 4) = win0_3.index t (0 : Fin 4)
    ∧ win0_0.index t (1 : Fin 4) = win0_3.index t (1 : Fin 4)
    ∧ win0_0.index t (2 : Fin 4) = win0_3.index t (2 : Fin 4)
    ∧ win0_0.index t (3 : Fin 4) = win0_3.index t (3 : Fin 4)
    ∧ win0_1.index t (0 : Fin 2) = 0
    ∧ win0_1.index t (1 : Fin 2) = 0
    ∧ win0_2.index t (0 : Fin 1) = 0
    ∧ win0_3.index t (1 : Fin 4) = (grid0.coords t 1).val
    ∧ win0_3.index t (2 : Fin 4) = (grid0.coords t 2).val
    ∧ win0_3.index t (3 : Fin 4) = 0 :=
  (by decide +kernel : ∀ t : Fin grid0.N, _)

/-- Every tile of the array is some point's. -/
theorem idx_onto : ∀ (q0 : Fin 2) (q1 : Fin 8) (q2 : Fin 4), ∃ t : Fin cfg0.N, win0_3.index t = ![q0.val, q1.val, q2.val, 0] :=
  (by decide +kernel : ∀ (q0 : Fin 2) (q1 : Fin 8) (q2 : Fin 4), ∃ t : Fin grid0.N, win0_3.index t = ![q0.val, q1.val, q2.val, 0])

/-- The transposed weight as the region finds it: the host's transpose of the weight argument. -/
theorem wt_eq (c : Dev nD) :
    (V m c main_v0 : S63x128.Idx → EReal)
      = transpose S63x128 [1, 0] (m ((c : Thread nD τ).loc main_arg2)) transposes_S128x63_S63x128_1_0 := by
  dsimp only [GenP.V, Gen.hostOps0]
  after_results

/-- Its entry at (bin, channel) is the weight's at (channel, bin). -/
theorem wt_at (c : Dev nD) (k : Fin 63) (ch : Fin 128) :
    (V m c main_v0 : S63x128.Idx → EReal) (ix2 k ch) = m ((c : Thread nD τ).loc main_arg2) (ix2 ch k) := by
  rw [wt_eq]
  exact transpose_apply [1, 0] _ transposes_S128x63_S63x128_1_0 (ix2 k ch) (ix2 ch k) (fun b => match b with
    | ⟨0, _⟩ => rfl
    | ⟨1, _⟩ => rfl)

/-- WHAT POINT `t` WRITES BACK is tile `t` of `relPosAdd` of the three argument arrays. -/
theorem flushed_eq (c : Dev nD) (t : Fin cfg0.N) :
    (dats m 0 c).flushed 3 t = ((cfg0.win 3).blk t).view.read (Elt Ideal)
      (relPosAdd (m ((c : Thread nD τ).loc main_arg0)) (m ((c : Thread nD τ).loc main_arg2)) (m ((c : Thread nD τ).loc main_arg3))) := by
  rw [flushed3]
  unfold out0_3
  rw [View.canon_unit_zero hz4]
  simp only [View.ld_unit_zero (S := S63x128) hz2, View.ld_unit_zero (S := S128) hz1, View.ld_unit_zero (S := S1x64x128x128) hz4]
  obtain ⟨e00, e01, e02, e03, e10, e11, e20, e31, e32, e33⟩ := idx_facts t
  funext y
  show k0_pay1 (F := Ideal) (grid0.coords t) (iblk m c 1 t) (iblk m c 2 t) (iblk m c 0 t) y
    = relPosAdd (m ((c : Thread nD τ).loc main_arg0)) (m ((c : Thread nD τ).loc main_arg2)) (m ((c : Thread nD τ).loc main_arg3))
        (((cfg0.win 3).blk t).view.emb y)
  refine (pay_apply (grid0.coords t) (iblk m c 1 t) (iblk m c 2 t) (iblk m c 0 t) y).trans ?_
  have hy1 : (y 1).val < 64 := (y 1).isLt
  have hy2 : (y 2).val < 128 := (y 2).isLt
  have hy3 : (y 3).val < 128 := (y 3).isLt
  -- the tile element's place in the array, on the three axes the result depends on
  have p1 : ((((cfg0.win 3).blk t).view.emb y) 1).val = (grid0.coords t 1).val * 64 + (y 1).val := by
    show win0_3.index t (1 : Fin 4) * 64 + 1 * (y 1).val = _
    omega
  have p2 : ((((cfg0.win 3).blk t).view.emb y) 2).val = (grid0.coords t 2).val * 128 + (y 2).val := by
    show win0_3.index t (2 : Fin 4) * 128 + 1 * (y 2).val = _
    omega
  have p3 : ((((cfg0.win 3).blk t).view.emb y) 3).val = (y 3).val := by
    show win0_3.index t (3 : Fin 4) * 128 + 1 * (y 3).val = _
    omega
  -- the input tile's element is the input array's at that place
  have hx : iblk m c 0 t y = m ((c : Thread nD τ).loc main_arg0) (((cfg0.win 3).blk t).view.emb y) := by
    show V m c main_arg0 (((cfg0.win 0).blk t).view.emb y) = _
    rw [V_main_arg0]
    refine congrArg _ (funext fun a => Fin.ext ?_)
    match a with
    | ⟨0, _⟩ => show win0_0.index t (0 : Fin 4) * 1 + 1 * (y 0).val = win0_3.index t (0 : Fin 4) * 1 + 1 * (y 0).val; omega
    | ⟨1, _⟩ => show win0_0.index t (1 : Fin 4) * 64 + 1 * (y 1).val = win0_3.index t (1 : Fin 4) * 64 + 1 * (y 1).val; omega
    | ⟨2, _⟩ => show win0_0.index t (2 : Fin 4) * 128 + 1 * (y 2).val = win0_3.index t (2 : Fin 4) * 128 + 1 * (y 2).val; omega
    | ⟨3, _⟩ => show win0_0.index t (3 : Fin 4) * 128 + 1 * (y 3).val = win0_3.index t (3 : Fin 4) * 128 + 1 * (y 3).val; omega
  -- the staged transposed weight at (bin, channel) is the weight at (channel, bin)
  have hw : ∀ (k : Fin 63) (ch : Fin 128), iblk m c 1 t (ix2 k ch) = m ((c : Thread nD τ).loc main_arg2) (ix2 ch k) := by
    intro k ch
    show V m c main_v0 (((cfg0.win 1).blk t).view.emb (ix2 k ch)) = _
    rw [show ((cfg0.win 1).blk t).view.emb (ix2 k ch) = ix2 k ch from funext fun a => Fin.ext (by
      match a with
      | ⟨0, _⟩ => show win0_1.index t (0 : Fin 2) * 63 + 1 * k.val = k.val; omega
      | ⟨1, _⟩ => show win0_1.index t (1 : Fin 2) * 128 + 1 * ch.val = ch.val; omega)]
    exact wt_at m c k ch
  -- the staged bias is the bias
  have hb : ∀ ch : Fin 128, iblk m c 2 t (ix1 ch) = m ((c : Thread nD τ).loc main_arg3) (ix1 ch) := by
    intro ch
    show V m c main_arg3 (((cfg0.win 2).blk t).view.emb (ix1 ch)) = _
    rw [V_main_arg3]
    refine congrArg _ (funext fun a => Fin.ext ?_)
    match a with
    | ⟨0, _⟩ => show win0_2.index t (0 : Fin 1) * 128 + 1 * ch.val = ch.val; omega
  rw [hx, hw, hb]
  simp only [relPosAdd]
  refine congrArg₂ (· + ·) rfl (congrArg₂ (· + ·) ?_ ?_)
  · refine congrArg _ (funext fun a => ?_)
    match a with
    | ⟨0, _⟩ => exact Fin.ext p3.symm
    | ⟨1, _⟩ => exact congrArg binOf (by rw [p1, p2])
  · refine congrArg _ (funext fun a => ?_)
    match a with
    | ⟨0, _⟩ => exact Fin.ext p3.symm

/-- An index of the array is in point `t`'s tile iff each coordinate is in the tile's range on its axis. -/
theorem mem_blk (t : Fin cfg0.N) (i : S2x512x512x128.Idx) :
    i ∈ ((cfg0.win 3).blk t).view.set ↔ ∀ a : Fin 4, win0_3.index t a * S1x64x128x128.size a ≤ (i a).val
      ∧ (i a).val < win0_3.index t a * S1x64x128x128.size a + S1x64x128x128.size a := by
  show i ∈ ((View.whole main_v1).slice (win0_3.rect t)).set ↔ _
  rw [View.set_slice_whole, Rect.mem_set_unit]
  exact Iff.rfl

/-- THE TILES COVER THE ARRAY: (n, q, k, c) lies in the tile of the point whose block index is (n, q / 64, k / 128, 0). -/
theorem cover (i : S2x512x512x128.Idx) :
    ∃ t : Fin cfg0.N, (cfg0.win 3).flush t = true ∧ i ∈ ((cfg0.win 3).blk t).view.set := by
  have h0 : (i 0).val < 2 := (i 0).isLt
  have h1 : (i 1).val < 512 := (i 1).isLt
  have h2 : (i 2).val < 512 := (i 2).isLt
  have h3 : (i 3).val < 128 := (i 3).isLt
  obtain ⟨t, ht⟩ := idx_onto ⟨(i 0).val, h0⟩ ⟨(i 1).val / 64, by omega⟩ ⟨(i 2).val / 128, by omega⟩
  have q0 : win0_3.index t (0 : Fin 4) = (i 0).val := congrFun ht 0
  have q1 : win0_3.index t (1 : Fin 4) = (i 1).val / 64 := congrFun ht 1
  have q2 : win0_3.index t (2 : Fin 4) = (i 2).val / 128 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 64 ≤ (i 1).val ∧ (i 1).val < win0_3.index t (1 : Fin 4) * 64 + 64; omega
  | ⟨2, _⟩ => show win0_3.index t (2 : Fin 4) * 128 ≤ (i 2).val ∧ (i 2).val < win0_3.index t (2 : Fin 4) * 128 + 128; omega
  | ⟨3, _⟩ => show win0_3.index t (3 : Fin 4) * 128 ≤ (i 3).val ∧ (i 3).val < win0_3.index t (3 : Fin 4) * 128 + 128; omega

/-- THE ARRAY after the run is `relPosAdd` of the three argument arrays. -/
theorem final (c : Dev nD) :
    (dats m 0 c).arrAt 3 cfg0.N
      = relPosAdd (m ((c : Thread nD τ).loc main_arg0)) (m ((c : Thread nD τ).loc main_arg2)) (m ((c : Thread nD τ).loc main_arg3)) :=
  (dats m 0 c).arrAt_eq_of_cover 3 _ (fun t _ => flushed_eq m c t) cover

/-- The kernel's run, read: the result array at `relPosAdd` of the arguments, the arguments unchanged. -/
theorem run : θ_run defs (onTc (τ := τ) (main (F := Ideal))) ⟨m, fun _ => 0, ρ⟩ fun r => ∀ c : Dev nD,
      r.2.mem ((c : Thread nD τ).loc main_v1)
        = relPosAdd (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.RelPosValue

end
-- ==== Proof.LibGatherGrid.lean ====
/-
  A gather of whole rows by a grid of start indices, read at one element, with the clamp kept.

  What `table[idx]` of a table `[n × f]` at an integer array `idx : [R × C]` lowers to: a gather whose start
  indices are `[R × C × 1]` (the index vector on axis 2, one component, sent to operand axis 0, that axis
  collapsed with a slice of one row; the operand's axis 1 an offset axis of full width, axis 2 of the
  result).  Result element (p, q, c) is the operand's element

      (min (toNat (idx[p, q, 0] read as a signed integer)) (n - 1), c):

  a negative word is sent to row 0 (`Int.toNat` of a negative integer is 0) and a word at or past the number
  of rows to the last row.  Nothing is asked of the word; the operand must have a row for the clamped row to
  exist.  (The library's `ValueIdx.gather_take_apply` is the same read for a rank-1 operand.)
-/
import Idealize.ShloMosaic.Lib.ValueIdx

noncomputable section

namespace Cert.LibGatherGrid

open Idealize.ShloMosaic Idealize.ShloMosaic.ValueIdx

variable {α : Type}

/-- The dimension numbers of `table[idx]` for a table `[n, f]`, start indices `[R, C, 1]` and result `[R, C, f]`;
    their conditions `wf` are decided on a program's literal shapes. -/
abbrev rowsDims (n f R C : Nat)
    (wf : GatherDims.WF ⟨2, ![n, f]⟩ ⟨3, ![R, C, 1]⟩ ⟨3, ![R, C, f]⟩ [2] [0] [] [0] [] 2 ![1, f]) :
    GatherDims ⟨2, ![n, f]⟩ ⟨3, ![R, C, 1]⟩ ⟨3, ![R, C, f]⟩ where
  offsetDims := [2]
  collapsedSliceDims := [0]
  operandBatchingDims := []
  startIndicesBatchingDims := []
  startIndexMap := [0]
  indexVectorDim := 2
  sliceSizes := ![1, f]
  wf := wf

/-- THE GATHER READ AT `(p, q, c)`: the table at row `idx[p, q, 0]`, read signed and clamped into `[0, n − 1]`,
    and column `c`. -/
theorem gather_rows_apply {n f R C w : Nat} (hn : 0 < n)
    (wf : GatherDims.WF ⟨2, ![n, f]⟩ ⟨3, ![R, C, 1]⟩ ⟨3, ![R, C, f]⟩ [2] [0] [] [0] [] 2 ![1, f])
    (x : (⟨2, ![n, f]⟩ : Shape).Idx → α) (idx : IVec ⟨3, ![R, C, 1]⟩ w) (p : Fin R) (q : Fin C) (c : Fin f) :
    Host.gather (rowsDims n f R C wf) x idx (ix3 p q c)
      = x (ix2 (⟨min (idx (ix3 p q (0 : Fin 1))).toInt.toNat (n - 1), by omega⟩ : Fin n) c) := by
  unfold Host.gather
  congr 1
  funext a
  refine Fin.ext ?_
  show (rowsDims n f R C wf).start (ix3 p q c) idx a + (rowsDims n f R C wf).batchCoord (ix3 p q c) a
      + (rowsDims n f R C wf).offCoord (ix3 p q c) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowsDims n f R C wf).startIndexMap from List.mem_singleton.mpr rfl)]
    have hsi : (rowsDims n f R C wf).siIdx (ix3 p q c) ⟨List.idxOf (⟨0, by decide⟩ : Fin 2) (rowsDims n f R C wf).startIndexMap,
        List.idxOf_lt_length_iff.2 (List.mem_singleton.mpr rfl)⟩ = ix3 p q (0 : Fin 1) := by
      funext b; refine Fin.ext ?_
      match b with
      | ⟨0, _⟩ => rfl
      | ⟨1, _⟩ => rfl
      | ⟨2, _⟩ => rfl
    rw [hsi]
    rfl
  | ⟨1, h1⟩ =>
    have hm : (⟨1, h1⟩ : Fin 2) ∉ (rowsDims n f R C wf).startIndexMap := fun h =>
      absurd (congrArg Fin.val (List.mem_singleton.mp h)) Nat.one_ne_zero
    have hk : (⟨1, h1⟩ : Fin 2) ∈ (rowsDims n f R C wf).sKept :=
      (GatherDims.mem_sKept _ _).mpr
        ⟨fun h => absurd (congrArg Fin.val (List.mem_singleton.mp h)) Nat.one_ne_zero, List.not_mem_nil⟩
    unfold GatherDims.start GatherDims.offCoord
    rw [dif_neg hm, dif_pos hk]
    have e : ∀ y : ℕ, 0 + 0 + y = y := fun y => by omega
    rw [e]
    rfl

end Cert.LibGatherGrid

end
-- ==== Proof.RefValue.lean ====
/-
  The reference's result, index by index, is the specification.

  The reference builds the table of bins on the host: two iotas broadcast to a 512 × 512 grid and subtracted
  give the difference word q - k at (q, k); the clip and the shift by 31 give the bin word.  Before the gather
  it wraps a negative index (adds 63 where the word is below 0): the bin word is never negative, so the wrap
  selects the word itself.  The gather reads the transposed weight at the row the word names, clamped into
  [0, 62], which is again the word's value, and the transpose turns (row, channel) back into the weight's
  (channel, row).  The bias is broadcast over (q, k), the sum over the batch, and the input is added last.
-/
import proofs.«142008_j76501957476438_1_alg».proof.Proof.Gen.ReferenceIdeal.Read
import proofs.«142008_j76501957476438_1_alg».proof.Proof.Spec
import proofs.«142008_j76501957476438_1_alg».proof.Proof.LibGatherGrid

noncomputable section

namespace Cert.ReferenceIdeal.RefValue

open Cert.ReferenceIdeal Cert.ReferenceIdeal.Gen Cert.ReferenceIdeal.Read
open Idealize.ShloMosaic Idealize.ShloMosaic.ValueIdx Cert.RelPos Cert.LibGatherGrid

/-- The shifted clip at (q, k) is the bin word of the difference word of the two positions. -/
theorem binword_at (p q : Fin 512) :
    val_main_v8 (F := Ideal) (ix2 p q) = binW (BitVec.ofNat 32 p.val - BitVec.ofNat 32 q.val) := rfl

/-- The wrap of negative indices leaves the bin word: it is not below 0. -/
theorem wrapped_at (p q : Fin 512) :
    val_main_v14 (F := Ideal) (ix2 p q) = binW (BitVec.ofNat 32 p.val - BitVec.ofNat 32 q.val) := by
  show Scalar.select (IntOp.cmpi .slt (val_main_v8 (F := Ideal) (ix2 p q)) 0#32)
      (val_main_v13 (F := Ideal) (ix2 p q)) (val_main_v8 (F := Ideal) (ix2 p q)) = _
  rw [binword_at, binW_not_neg, select_zero]

/-- The start index the gather reads for (q, k). -/
theorem start_at (p q : Fin 512) :
    val_main_v15 (F := Ideal) (ix3 p q (0 : Fin 1)) = binW (BitVec.ofNat 32 p.val - BitVec.ofNat 32 q.val) :=
  (val_main_v15_apply (F := Ideal) _).trans (wrapped_at p q)

/-- The gathered embedding at (q, k, c) is the weight at channel c and the bin of (q, k). -/
theorem gathered_at (x2 : (⟨S128x63, .f32⟩ : BufTy).Contents (Elt Ideal)) (p q : Fin 512) (c : Fin 128) :
    val_main_v16 (F := Ideal) x2 (ix3 p q c)
      = x2 (ix2 c (binOf (BitVec.ofNat 32 p.val - BitVec.ofNat 32 q.val))) := by
  unfold val_main_v16
  rw [show gather_S63x128_S512x512x1_S512x512x128_2_0_n_n_0_2_1128
      = rowsDims 63 128 512 512 Facts₀.gather_S63x128_S512x512x1_S512x512x128_2_0_n_n_0_2_1128_wf from rfl]
  rw [gather_rows_apply (by decide), val_main_v9_apply]
  congr 1
  funext a
  match a with
  | ⟨0, _⟩ => rfl
  | ⟨1, _⟩ =>
    refine Fin.ext ?_
    show min (val_main_v15 (F := Ideal) (ix3 p q (0 : Fin 1))).toInt.toNat (63 - 1) = (binW _).toNat
    rw [start_at]
    exact binW_clamp _

/-- THE REFERENCE IS THE SPECIFICATION: the last stage of the reference, as a function of the input, the
    weight and the bias, is `relPosAdd`. -/
theorem ref_eq (x0 : (⟨S2x512x512x128, .f32⟩ : BufTy).Contents (Elt Ideal))
    (x2 : (⟨S128x63, .f32⟩ : BufTy).Contents (Elt Ideal)) (x3 : (⟨S128, .f32⟩ : BufTy).Contents (Elt Ideal)) :
    val_main_v22 (F := Ideal) x0 x2 x3 = relPosAdd x0 x2 x3 := by
  funext i
  obtain ⟨a, p, q, c, rfl⟩ : ∃ (a : Fin 2) (p : Fin 512) (q : Fin 512) (c : Fin 128), i = ix4 a p q c :=
    ⟨i 0, i 1, i 2, i 3, eq_ix4 i⟩
  rw [val_main_v22_apply, val_main_v21_apply, val_main_v20_apply, val_main_v19_apply, val_main_v18_apply,
    val_main_v17_apply]
  rw [show idx_main_v20 (idx_main_v21 (ix4 a p q c)) = ix3 p q c from
    funext fun e => by match e with | ⟨0, _⟩ => rfl | ⟨1, _⟩ => rfl | ⟨2, _⟩ => rfl]
  rw [gathered_at]
  rw [show idx_main_v17 (idx_main_v18 (ix3 p q c)) = ix1 c from
    funext fun e => by match e with | ⟨0, _⟩ => rfl]
  rfl

end Cert.ReferenceIdeal.RefValue

end
-- ==== Proof.lean ====
/-
  Relative-position embedding added to a [2, 512, 512, 128] input: the kernel against its jnp reference, over
  the extended reals.

  Both programs compute

      out[n, q, k, c] = x[n, q, k, c] + (W[c, bin(q, k)] + b[c]),   bin(q, k) = clamp(q - k, -31, 31) + 31.

  The reference builds the 512 × 512 table of bins on the host and gathers the rows of the transposed weight
  at it.  The kernel, tile by tile (64 query positions by 128 key positions), builds the tile's table of bins
  from the grid position, turns it into one-hot rows and multiplies them into the transposed weight: on the
  extended reals a one-hot row times a column is the column's entry at the hot position (0 · w = 0 and
  1 · w = w also for an infinite w), so the product is the gather.  The bias and the input are added in the same
  order on both sides, and the changes of float format in the kernel are the identity on the extended reals.
  No law that needs finite values is used, so the precondition is never opened.

  The modules: Bins (the bin word, its range, the one-hot sum), Spec (the function above), LibGatherGrid (a
  gather of whole rows by a grid of indices, read at one element), RefValue (the reference is the function),
  Payload (the kernel's stored value at one tile element), KernelValue (the kernel's result array is the
  function); the frames are the generated ones (the kernels' through a repaired copy, KernelFrame and
  KernelIdealFrame).  The ideal pass rewrote nothing, so `preserves` has nothing to state.
-/
import proofs.«142008_j76501957476438_1_alg».proof.Defs
import proofs.«142008_j76501957476438_1_alg».proof.Proof.Gen.Kernel
import proofs.«142008_j76501957476438_1_alg».proof.Proof.Gen.KernelIdeal
import proofs.«142008_j76501957476438_1_alg».proof.Proof.Gen.ReferenceIdeal
import proofs.«142008_j76501957476438_1_alg».proof.Proof.Gen.Pre_finite_inputs
import proofs.«142008_j76501957476438_1_alg».proof.Proof.KernelFrame
import proofs.«142008_j76501957476438_1_alg».proof.Proof.KernelValue
import proofs.«142008_j76501957476438_1_alg».proof.Proof.RefValue
import Idealize.ShloMosaic.Adequacy
import Idealize.ShloMosaic.Init

noncomputable section

namespace Cert.Proof

open Idealize.ShloMosaic Idealize.SL.Sem

/-- The word-level kernel terminates without a fault and leaves its arguments as they were. -/
theorem frame_k : Cert.frame_Kernel := fun m ρ _ => Cert.Kernel.GenP.frame m ρ

/-- So does the kernel read at the extended reals. -/
theorem frame_ki : Cert.frame_KernelIdeal := fun m ρ _ => Cert.KernelIdeal.GenP.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten for the reading at the extended reals. -/
theorem preserves : Cert.preserves_Kernel_KernelIdeal := trivial

/-- From memories that agree on the arguments both programs end with `relPosAdd` of the input, the weight
    and the bias in their result array. -/
theorem algebraic : Cert.algebraic_KernelIdeal_ReferenceIdeal := by
  intro m ρ m' ρ' _ hagree
  refine ⟨fun c => Cert.RelPos.relPosAdd
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.RelPosValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.ref_eq,
    (hagree c).1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
